-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x64x64 : Shape := ⟨4, ![32, 3, 64, 64]⟩
abbrev S64x512 : Shape := ⟨2, ![64, 512]⟩
abbrev S_ : Shape := ⟨0, ![]⟩

class Facts : Prop where
  bcast_S_S32x3x64x64 : S_.BroadcastsInDim S32x3x64x64 (![] : Fin 0 → Fin S32x3x64x64.rank)
  reducesTo_S32x3x64x64_S_d0_1_2_3 : S32x3x64x64.ReducesTo [0, 1, 2, 3] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S32x3x64x64 .f32) (main_arg1 : FVec F S64x512 .f32) : IVec S_ 1 :=
  let main_v0 : FVec F S32x3x64x64 .f32 := Host.absf main_arg0
  let main_cst : FVec F S_ .f32 := constant S_ .f32 0x7F800000#32
  let main_v1 : FVec F S32x3x64x64 .f32 := broadcastInDim S32x3x64x64 ![] bcast_S_S32x3x64x64 main_cst
  let main_v2 : IVec S32x3x64x64 1 := cmpf .olt main_v0 main_v1
  let main_c : IVec S_ 1 := constantI S_ 1 1#1
  let main_v3 : IVec S_ 1 := (fun x v => Host.reduce IntOp.andi x v reducesTo_S32x3x64x64_S_d0_1_2_3 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S32x3x64x64 : Shape := ⟨4, ![32, 3, 64, 64]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S64x64x512 : Shape := ⟨3, ![64, 64, 512]⟩
abbrev S4096x512 : Shape := ⟨2, ![4096, 512]⟩
abbrev S512x4096 : Shape := ⟨2, ![512, 4096]⟩
abbrev S32x512x4096 : Shape := ⟨3, ![32, 512, 4096]⟩
abbrev S32x4096 : Shape := ⟨2, ![32, 4096]⟩
abbrev S32x32x4096 : Shape := ⟨3, ![32, 32, 4096]⟩
abbrev S1x32x4096 : Shape := ⟨3, ![1, 32, 4096]⟩
abbrev S32x512x64x64 : Shape := ⟨4, ![32, 512, 64, 64]⟩

abbrev nBuf : Space → Nat
  | .hbm => 36
  | .vmem => 4
  | .smem => 0
  | _ => 0

abbrev bufTy : (tb : Table) → Fin (tcTables nBuf tb) → BufTy
  | .hbm, ⟨0, _⟩ => ⟨S32x3x64x64, .f32⟩
  | .hbm, ⟨1, _⟩ => ⟨S64x512, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S_, .i32⟩
  | .hbm, ⟨7, _⟩ => ⟨S1x64, .i32⟩
  | .hbm, ⟨8, _⟩ => ⟨S1x64, .i32⟩
  | .hbm, ⟨9, _⟩ => ⟨S1x64, .i32⟩
  | .hbm, ⟨10, _⟩ => ⟨S_, .i32⟩
  | .hbm, ⟨11, _⟩ => ⟨S64x1, .i32⟩
  | .hbm, ⟨12, _⟩ => ⟨S64x1, .i32⟩
  | .hbm, ⟨13, _⟩ => ⟨S64x1, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i1⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64x1, .i32⟩
  | .hbm, ⟨31, _⟩ => ⟨S64x64x512, .f32⟩
  | .hbm, ⟨32, _⟩ => ⟨S4096x512, .f32⟩
  | .hbm, ⟨33, _⟩ => ⟨S512x4096, .f32⟩
  | .hbm, ⟨34, _⟩ => ⟨S32x512x4096, .f32⟩
  | .hbm, ⟨35, _⟩ => ⟨S32x512x64x64, .f32⟩
  | .local _ .vmem, ⟨0, _⟩ => ⟨S32x4096, .f32⟩
  | .local _ .vmem, ⟨1, _⟩ => ⟨S32x4096, .f32⟩
  | .local _ .vmem, ⟨2, _⟩ => ⟨S32x32x4096, .f32⟩
  | .local _ .vmem, ⟨3, _⟩ => ⟨S32x32x4096, .f32⟩
  | _, _ => ⟨S32x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (k0_t1 : Fin k0_t1_loop.trips) : Fin 3 → Nat :=
  let c0_i32_3 : BitVec 32 := 0#32
  let c0_i32 : BitVec 32 := 0#32
  let c1_i32 : BitVec 32 := 1#32
  let arg3 : BitVec 32 := Scf.iv c0_i32 c1_i32 k0_t1
  let c1_i32_2 : BitVec 32 := 1#32
  let v3 : BitVec 32 := Scalar.muli arg3 c1_i32_2
  let v4 : BitVec 32 := Scalar.addi c0_i32_3 v3
  let v5 : Index := Scalar.indexCast v4
  let c0_4 : Index := 0#32
  let c0_5 : Index := 0#32
  ![v5.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S_S64x1 : S_.BroadcastsInDim S64x1 (![] : Fin 0 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  shapeCasts_S64x64x512_S4096x512 : S64x64x512.ShapeCasts S4096x512
  transposes_S4096x512_S512x4096_1_0 : S4096x512.Transposes [1, 0] S512x4096
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  h_S1x32x4096 : 0 < S1x32x4096.numel
  shapeCasts_S1x32x4096_S32x4096 : S1x32x4096.ShapeCasts S32x4096
  shapeCasts_S32x4096_S1x32x4096 : S32x4096.ShapeCasts S1x32x4096
  shapeCasts_S32x512x4096_S32x512x64x64 : S32x512x4096.ShapeCasts S32x512x64x64
  gather_S64x512_S64x64x1_S64x64x512_2_0_n_n_0_2_1512_wf : GatherDims.WF S64x512 S64x64x1 S64x64x512 [2] [0] [] [0] [] 2 ![1, 512]
  hrank0 : 0 < grid0.rank
  k0_t1_ok : k0_t1_loop.OK
  k0_off1_inb : ∀ k0_t1 : Fin k0_t1_loop.trips, ∀ a, (k0_off1 k0_t1) a + S1x32x4096.size a ≤ S32x32x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S512x4096.size a
  hwx0_0 : ∀ i : grid0.Coords, EltTy.bits .f32 = 32 ∨ (Rect.block (s := S512x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32x4096.size a ≤ S32x512x4096.size a
  hwx0_1 : ∀ i : grid0.Coords, EltTy.bits .f32 = 32 ∨ (Rect.block (s := S32x512x4096) S32x32x4096.size (cc0_transform_1 i) (hinb0_1 i)).WholeWords (EltTy.packing .f32)

variable [Facts₀]

def gather_S64x512_S64x64x1_S64x64x512_2_0_n_n_0_2_1512 : GatherDims S64x512 S64x64x1 S64x64x512 where
  offsetDims := [2]
  collapsedSliceDims := [0]
  operandBatchingDims := []
  startIndicesBatchingDims := []
  startIndexMap := [0]
  indexVectorDim := 2
  sliceSizes := ![1, 512]
  wf := gather_S64x512_S64x64x1_S64x64x512_2_0_n_n_0_2_1512_wf

abbrev win0_0 : Pipeline.Window sig grid0 :=
  Pipeline.Window.ofSpec (Memref.whole main_v25) S32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S32x32x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x64x64 : Shape := ⟨4, ![32, 3, 64, 64]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S64x64x1 : Shape := ⟨3, ![64, 64, 1]⟩
abbrev S64x64x512 : Shape := ⟨3, ![64, 64, 512]⟩
abbrev S512x64x64 : Shape := ⟨3, ![512, 64, 64]⟩
abbrev S1x512x64x64 : Shape := ⟨4, ![1, 512, 64, 64]⟩
abbrev S32x512x64x64 : Shape := ⟨4, ![32, 512, 64, 64]⟩

abbrev nBuf : Space → Nat
  | .hbm => 35
  | .vmem => 0
  | .smem => 0
  | _ => 0

abbrev bufTy : (tb : Table) → Fin (tcTables nBuf tb) → BufTy
  | .hbm, ⟨0, _⟩ => ⟨S32x3x64x64, .f32⟩
  | .hbm, ⟨1, _⟩ => ⟨S64x512, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S_, .i32⟩
  | .hbm, ⟨7, _⟩ => ⟨S1x64, .i32⟩
  | .hbm, ⟨8, _⟩ => ⟨S1x64, .i32⟩
  | .hbm, ⟨9, _⟩ => ⟨S1x64, .i32⟩
  | .hbm, ⟨10, _⟩ => ⟨S_, .i32⟩
  | .hbm, ⟨11, _⟩ => ⟨S64x1, .i32⟩
  | .hbm, ⟨12, _⟩ => ⟨S64x1, .i32⟩
  | .hbm, ⟨13, _⟩ => ⟨S64x1, .i32⟩
  | .hbm, ⟨14, _⟩ => ⟨S64x64, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i1⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64x1, .i32⟩
  | .hbm, ⟨31, _⟩ => ⟨S64x64x512, .f32⟩
  | .hbm, ⟨32, _⟩ => ⟨S512x64x64, .f32⟩
  | .hbm, ⟨33, _⟩ => ⟨S1x512x64x64, .f32⟩
  | .hbm, ⟨34, _⟩ => ⟨S32x512x64x64, .f32⟩
  | _, _ => ⟨S32x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S_S1x64 : S_.BroadcastsInDim S1x64 (![] : Fin 0 → Fin S1x64.rank)
  bcast_S_S64x1 : S_.BroadcastsInDim S64x1 (![] : Fin 0 → Fin S64x1.rank)
  bcast_S1x64_S64x64_0_1 : S1x64.BroadcastsInDim S64x64 (![0, 1] : Fin 2 → Fin S64x64.rank)
  bcast_S64x1_S64x64_0_1 : S64x1.BroadcastsInDim S64x64 (![0, 1] : Fin 2 → Fin S64x64.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  transposes_S64x64x512_S512x64x64_2_0_1 : S64x64x512.Transposes [2, 0, 1] S512x64x64
  bcast_S512x64x64_S1x512x64x64_1_2_3 : S512x64x64.BroadcastsInDim S1x512x64x64 (![1, 2, 3] : Fin 3 → Fin S1x512x64x64.rank)
  bcast_S1x512x64x64_S32x512x64x64_0_1_2_3 : S1x512x64x64.BroadcastsInDim S32x512x64x64 (![0, 1, 2, 3] : Fin 4 → Fin S32x512x64x64.rank)
  gather_S64x512_S64x64x1_S64x64x512_2_0_n_n_0_2_1512_wf : GatherDims.WF S64x512 S64x64x1 S64x64x512 [2] [0] [] [0] [] 2 ![1, 512]

variable [Facts₀]

def gather_S64x512_S64x64x1_S64x64x512_2_0_n_n_0_2_1512 : GatherDims S64x512 S64x64x1 S64x64x512 where
  offsetDims := [2]
  collapsedSliceDims := [0]
  operandBatchingDims := []
  startIndicesBatchingDims := []
  startIndexMap := [0]
  indexVectorDim := 2
  sliceSizes := ![1, 512]
  wf := gather_S64x512_S64x64x1_S64x64x512_2_0_n_n_0_2_1512_wf

class Facts : Prop extends Facts₀ where

variable [Facts]
-- ==== Proof.Layout.lean ====
/-
  Index arithmetic of the layout operations around the positional table, over any element type.

  The table `g` has shape [64, 64, 512]: entry (p, q, f) is feature `f` of the embedding row chosen for pixel
  (p, q). One program merges the two pixel axes (row r = 64·p + q), swaps the merged axis with the feature axis,
  repeats the [512, 4096] result over a batch of 32 and finally splits the 4096 lanes back into 64 × 64; the other
  program moves the feature axis to the front and repeats over the batch. Both end at
  out (b, f, p, q) = g (p, q, f), the function `posOf g` below.
-/
import Idealize.ShloMosaic.Lib.Pipeline.Value
import Idealize.ShloMosaic.Lib.ValueIdx
import Idealize.ShloMosaic.Lib.ValueLayout

namespace Cert.PosTable

open Idealize.ShloMosaic Idealize.ShloMosaic.ValueIdx

variable {α : Type}

/-- The result both programs compute from the table: batch entry `b`, feature `f`, pixel (p, q) holds
    g (p, q, f), for every `b`. -/
def posOf (g : (⟨3, ![64, 64, 512]⟩ : Shape).Idx → α) : (⟨4, ![32, 512, 64, 64]⟩ : Shape).Idx → α :=
  fun i => g (ix3 (i 2) (i 3) (i 1))

theorem posOf_apply (g : (⟨3, ![64, 64, 512]⟩ : Shape).Idx → α) (b : Fin 32) (f : Fin 512) (p q : Fin 64) :
    posOf g (ix4 b f p q) = g (ix3 p q f) := rfl

/-- Merging the two pixel axes: row 64·p + q of the [4096, 512] view is pixel (p, q). -/
theorem mergePixels_apply (g : (⟨3, ![64, 64, 512]⟩ : Shape).Idx → α)
    (h : (⟨3, ![64, 64, 512]⟩ : Shape).ShapeCasts ⟨2, ![4096, 512]⟩) (p q : Fin 64) (f : Fin 512)
    (hr : p.val * 64 + q.val < 4096) :
    shapeCast ⟨2, ![4096, 512]⟩ g h (ix2 (⟨p.val * 64 + q.val, hr⟩ : Fin 4096) f) = g (ix3 p q f) :=
  shapeCast_apply g h _ _ (by
    rw [Shape.rowMajor_val_three, Shape.rowMajor_val_two]
    show (p.val * 64 + q.val) * 512 + f.val = (p.val * 64 + q.val) * 512 + f.val
    rfl)

/-- Swapping the two axes of the merged table. -/
theorem swapAxes_apply (x : (⟨2, ![4096, 512]⟩ : Shape).Idx → α)
    (h : (⟨2, ![4096, 512]⟩ : Shape).Transposes [1, 0] ⟨2, ![512, 4096]⟩) (f : Fin 512) (r : Fin 4096) :
    transpose ⟨2, ![512, 4096]⟩ [1, 0] x h (ix2 f r) = x (ix2 r f) :=
  transpose_apply _ x h _ _ fun c => match c with | ⟨0, _⟩ => rfl | ⟨1, _⟩ => rfl

/-- Splitting the 4096 lanes into 64 × 64 pixels: pixel (p, q) is lane 64·p + q. -/
theorem splitLanes_apply (o : (⟨3, ![32, 512, 4096]⟩ : Shape).Idx → α)
    (h : (⟨3, ![32, 512, 4096]⟩ : Shape).ShapeCasts ⟨4, ![32, 512, 64, 64]⟩) (b : Fin 32) (f : Fin 512) (p q : Fin 64)
    (hr : p.val * 64 + q.val < 4096) :
    shapeCast ⟨4, ![32, 512, 64, 64]⟩ o h (ix4 b f p q) = o (ix3 b f (⟨p.val * 64 + q.val, hr⟩ : Fin 4096)) :=
  shapeCast_apply o h _ _ (by
    rw [Shape.rowMajor_val_three, Shape.rowMajor_val_four]
    show (b.val * 512 + f.val) * 4096 + (p.val * 64 + q.val) = ((b.val * 512 + f.val) * 64 + p.val) * 64 + q.val
    omega)

/-- The merged, swapped table repeated over the batch and split back into pixels is `posOf g`. -/
theorem repeat_split_eq (g : (⟨3, ![64, 64, 512]⟩ : Shape).Idx → α)
    (h1 : (⟨3, ![64, 64, 512]⟩ : Shape).ShapeCasts ⟨2, ![4096, 512]⟩)
    (h2 : (⟨2, ![4096, 512]⟩ : Shape).Transposes [1, 0] ⟨2, ![512, 4096]⟩)
    (h3 : (⟨3, ![32, 512, 4096]⟩ : Shape).ShapeCasts ⟨4, ![32, 512, 64, 64]⟩) :
    shapeCast ⟨4, ![32, 512, 64, 64]⟩
      (fun y : (⟨3, ![32, 512, 4096]⟩ : Shape).Idx =>
        transpose ⟨2, ![512, 4096]⟩ [1, 0] (shapeCast ⟨2, ![4096, 512]⟩ g h1) h2 (ix2 (y 1) (y 2))) h3
      = posOf g := by
  funext i
  obtain ⟨b, f, p, q, rfl⟩ : ∃ (b : Fin 32) (f : Fin 512) (p q : Fin 64), i = ix4 b f p q :=
    ⟨i 0, i 1, i 2, i 3, eq_ix4 i⟩
  have hr : p.val * 64 + q.val < 4096 := by have := p.isLt; have := q.isLt; omega
  rw [splitLanes_apply _ h3 b f p q hr, posOf_apply]
  show transpose ⟨2, ![512, 4096]⟩ [1, 0] (shapeCast ⟨2, ![4096, 512]⟩ g h1) h2 (ix2 f ⟨p.val * 64 + q.val, hr⟩) = _
  rw [swapAxes_apply, mergePixels_apply]

end Cert.PosTable
-- ==== Proof.Body.lean ====
/-
  What the kernel body leaves in its output block.

  The body loads its whole input block `x` (32 feature rows × 4096 lanes) once and then, for each of the 32 batch
  slots k, stores `x` (seen as a [1, 32, 4096] slab) into slab k of the [32, 32, 4096] output block. Every store
  therefore writes values of ONE function of the block index, y ↦ x (y₁, y₂), so whatever order the stores come in
  and whatever the block held before, the block ends holding that function wherever a store reached — and the 32
  slabs reach everywhere.
-/
import proofs.«413328_j13245679141210_3_alg».proof.Proof.Gen.KernelIdeal.Frame
import Idealize.ShloMosaic.Lib.ValueIdx
import Idealize.ShloMosaic.Lib.ValueLayout

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx

variable {F : FTy → Type} [FloatOps F]

/-- The stored slab at (u, p, q) is the loaded block at (p, q): the two casts only add the unit batch axis. -/
theorem slab_apply (v0 : Vec F S32x4096 .f32) (u : Fin 1) (p : Fin 32) (q : Fin 4096) :
    k0_pay1 v0 (ix3 u p q) = v0 (ix2 p q) := by
  unfold k0_pay1
  rw [shapeCast_ab_1ab_apply, shapeCast_self]

/-- The block as a function of its index when every slab holds the loaded block. -/
def slabs (v0 : Vec F S32x4096 .f32) : S32x32x4096.Idx → Elt F .f32 := fun y => v0 (ix2 (y 1) (y 2))

/-- A store of the slab through a unit-stride rectangle that starts at lane 0 of feature row 0 (only the batch slot
    varies) writes values of `slabs v0`. -/
theorem store_agree (v0 : Vec F S32x4096 .f32) (off : Fin 3 → ℕ) (inb : ∀ a, off a + (![1, 32, 4096] : Fin 3 → ℕ) a ≤ S32x32x4096.size a)
    (h1 : off 1 = 0) (h2 : off 2 = 0) (x : (Rect.unit (s := S32x32x4096) off ![1, 32, 4096] inb).shape.Idx) :
    k0_pay1 v0 x = slabs v0 ((Rect.unit (s := S32x32x4096) off ![1, 32, 4096] inb).emb x) := by
  obtain ⟨u, p, q, rfl⟩ : ∃ (u : Fin 1) (p : Fin 32) (q : Fin 4096), x = ix3 u p q :=
    ⟨x 0, x 1, x 2, eq_ix3 (n0 := 1) (n1 := 32) (n2 := 4096) x⟩
  rw [slab_apply]
  unfold slabs
  refine congrArg v0 (funext fun a => Fin.ext ?_)
  match a with
  | ⟨0, _⟩ => show p.val = off 1 + 1 * p.val; rw [h1]; omega
  | ⟨1, _⟩ => show q.val = off 2 + 1 * q.val; rw [h2]; omega

/-- Every store of the first `n` trips writes values of `slabs v0`. -/
theorem pieces_agree (𝒱 : Variants) (c : Dev nD) (bd : Option 𝒱.V) (i : grid0.Coords)
    (arg1 : Memref sig .tc .vmem S32x4096 .f32) (harg1 : arg1.IsWhole) (arg2 : Memref sig .tc .vmem S32x32x4096 .f32) (harg2 : arg2.IsWhole)
    (v0 : Vec F S32x4096 .f32) :
    ∀ n : ℕ, ∀ p ∈ pb_k0_t1 (F := F) 𝒱 c bd i arg1 harg1 arg2 harg2 v0 n, ∀ x : p.1.shape.Idx, p.2 x = slabs v0 (p.1.emb x) := by
  intro n
  induction n with
  | zero => intro p hp; exact absurd hp List.not_mem_nil
  | succ n ih =>
    intro p hp x
    rw [pb_k0_t1.eq_2] at hp
    unfold pb_k0_t1Step at hp
    split at hp
    · rename_i hn
      rcases List.mem_append.mp hp with hp | hp
      · unfold tripL_k0_t1 trip_k0_t1 at hp
        dsimp only at hp
        obtain rfl := List.mem_singleton.mp hp
        exact store_agree v0 (k0_off1 ⟨n, hn⟩) (k0_off1_inb ⟨n, hn⟩) rfl rfl x
      · exact ih p hp x
    · exact ih p hp x

/-- THE BLOCK AFTER THE BODY: at every index y it holds the input block at (y₁, y₂), whatever the batch slot y₀. -/
theorem out_apply (c : Dev nD) (i : grid0.Coords) (arg1 : Memref sig .tc .vmem S32x4096 .f32) (harg1 : arg1.IsWhole)
    (arg2 : Memref sig .tc .vmem S32x32x4096 .f32) (harg2 : arg2.IsWhole) (x0 : Vec F S32x4096 .f32) (y : S32x32x4096.Idx) :
    out0_A_1 c i arg1 harg1 arg2 harg2 x0 y = x0 (ix2 (y 1) (y 2)) := by
  unfold out0_A_1
  have hcov := cover0_A_1 c i arg1 harg1 arg2 harg2 x0 y
  revert hcov
  unfold kernelRun0_A
  dsimp only
  intro hcov
  rw [View.read_writes_apply_of_pieces VO0_1 _ _ _ (pieces_agree Variants.none c none i arg1 harg1 arg2 harg2 _ _) y hcov]
  unfold slabs
  rw [View.readAt_eq_ld, harg1.read_unread]
  rw [View.ld_unit_zero (S := S32x4096) (funext fun a => by fin_cases a <;> rfl)]

end Cert.KernelIdeal.Body

end
-- ==== Proof.KernelValue.lean ====
/-
  The kernel's result array, read off its frame run.

  The pallas_call's one input is the [512, 4096] table `P` (features × lanes) that the host operations before the
  region leave in `main_v25`; grid point t stages feature rows 32t … 32t + 31 of it, and the body copies that block
  into each of the 32 batch slots of the output block, which is written back to features 32t … 32t + 31 of every
  batch entry of the [32, 512, 4096] result. So each point writes back its block of ONE whole-array function,
  y ↦ P (y₁, y₂), and the 16 points' blocks cover the result: the result IS that function. The host reshape
  after the region then splits the lanes into 64 × 64 pixels.
-/
import proofs.«413328_j13245679141210_3_alg».proof.Proof.Gen.KernelIdeal.Frame
import proofs.«413328_j13245679141210_3_alg».proof.Proof.Body
import proofs.«413328_j13245679141210_3_alg».proof.Proof.Layout
import Idealize.ShloMosaic.Lib.Pipeline.Value
import Idealize.ShloMosaic.Lib.StableHlo.Run
import Idealize.ShloMosaic.Lib.ValueIdx

set_option maxRecDepth 16384

noncomputable section

namespace Cert.KernelIdeal.PosValue

open Cert.KernelIdeal Cert.KernelIdeal.Gen Idealize.ShloMosaic Idealize.ShloMosaic.TcCoe Idealize.SL.Sem
open Idealize.ShloMosaic.ValueIdx
open Idealize.ShloMosaic.Pipeline (Dat)
open Cert.PosTable

variable {F : FTy → Type} [FloatOps F]
variable (m : (ℓ : Loc nD τ sig) → Buf (Elt F) ℓ) (ρ : Dev nD → PrngReg)

/-- The [512, 4096] table repeated over the batch axis. -/
def overBatch (P : S512x4096.Idx → Elt F .f32) : S32x512x4096.Idx → Elt F .f32 := fun y => P (ix2 (y 1) (y 2))

/-- The index maps over the 16 grid points: the input's feature block is the output's, point t's feature block is
    block t, and the other block indices are zero. -/
theorem idx_facts : ∀ t : Fin cfg0.N, win0_0.index t (0 : Fin 2) = win0_1.index t (1 : Fin 3)
    ∧ win0_0.index t (1 : Fin 2) = 0
    ∧ win0_1.index t (0 : Fin 3) = 0
    ∧ win0_1.index t (1 : Fin 3) = t.val
    ∧ win0_1.index t (2 : Fin 3) = 0 :=
  (by decide +kernel : ∀ t : Fin grid0.N, _)

/-- WHAT POINT `t` WRITES BACK is block `t` of the table repeated over the batch. -/
theorem flushed_eq (c : Dev nD) (t : Fin cfg0.N) :
    (dats m 0 c).flushed 1 t = ((cfg0.win 1).blk t).view.read (Elt F) (overBatch (V m c main_v25)) := by
  show (cfg0.win 1).cut (grid0.coords t) ((dats m 0 c).after 1 t) = _
  rw [after0_1]
  unfold outsAt0
  funext j
  show out0_A_1 c (grid0.coords t) (ms0_0 t) (hs0_0 t) (ms0_1 t) (hs0_1 t) (iblk m c 0 t) j
    = overBatch (V m c main_v25) (((cfg0.win 1).blk t).view.emb j)
  refine (Cert.KernelIdeal.Body.out_apply c (grid0.coords t) (ms0_0 t) (hs0_0 t) (ms0_1 t) (hs0_1 t) (iblk m c 0 t) j).trans ?_
  unfold iblk overBatch
  obtain ⟨e0, e1, e2, e3, e4⟩ := idx_facts t
  show V m c main_v25 (((cfg0.win 0).blk t).view.emb (ix2 (j 1) (j 2))) = V m c main_v25 (ix2 ((((cfg0.win 1).blk t).view.emb j) 1) ((((cfg0.win 1).blk t).view.emb j) 2))
  refine congrArg (V m c main_v25) (funext fun a => Fin.ext ?_)
  match a with
  | ⟨0, _⟩ => show win0_0.index t (0 : Fin 2) * 32 + 1 * (j 1).val = win0_1.index t (1 : Fin 3) * 32 + 1 * (j 1).val; rw [e0]
  | ⟨1, _⟩ => show win0_0.index t (1 : Fin 2) * 4096 + 1 * (j 2).val = win0_1.index t (2 : Fin 3) * 4096 + 1 * (j 2).val; rw [e1, e4]

/-- An index of the result is in point `t`'s block iff each coordinate is in the block's range on its axis. -/
theorem mem_blk (t : Fin cfg0.N) (i : S32x512x4096.Idx) :
    i ∈ ((cfg0.win 1).blk t).view.set ↔ ∀ a : Fin 3, win0_1.index t a * S32x32x4096.size a ≤ (i a).val ∧ (i a).val < win0_1.index t a * S32x32x4096.size a + S32x32x4096.size a := by
  show i ∈ ((View.whole main_v26).slice (win0_1.rect t)).set ↔ _
  rw [View.set_slice_whole, Rect.mem_set_unit]
  exact Iff.rfl

/-- Every index of the result lies in the block of the point that owns its feature row. -/
theorem cover (c : Dev nD) (i : S32x512x4096.Idx) :
    ∃ t : Fin cfg0.N, (cfg0.win 1).flush t = true ∧ i ∈ ((cfg0.win 1).blk t).view.set := by
  have h0 : (i 0).val < 32 := (i 0).isLt
  have h1 : (i 1).val < 512 := (i 1).isLt
  have h2 : (i 2).val < 4096 := (i 2).isLt
  have hN : (i 1).val / 32 < cfg0.N := by rw [show cfg0.N = 16 from N_0]; omega
  refine ⟨⟨(i 1).val / 32, hN⟩, flush0_1 _, ?_⟩
  rw [mem_blk]
  obtain ⟨e0, e1, e2, e3, e4⟩ := idx_facts ⟨(i 1).val / 32, hN⟩
  intro a
  match a with
  | ⟨0, _⟩ => show win0_1.index _ (0 : Fin 3) * 32 ≤ (i 0).val ∧ (i 0).val < win0_1.index _ (0 : Fin 3) * 32 + 32; rw [e2]; omega
  | ⟨1, _⟩ => show win0_1.index _ (1 : Fin 3) * 32 ≤ (i 1).val ∧ (i 1).val < win0_1.index _ (1 : Fin 3) * 32 + 32; rw [e3]; show (i 1).val / 32 * 32 ≤ (i 1).val ∧ (i 1).val < (i 1).val / 32 * 32 + 32; omega
  | ⟨2, _⟩ => show win0_1.index _ (2 : Fin 3) * 4096 ≤ (i 2).val ∧ (i 2).val < win0_1.index _ (2 : Fin 3) * 4096 + 4096; rw [e4]; omega

/-- THE RESULT ARRAY after the region: the table repeated over the batch. -/
theorem final (c : Dev nD) : (dats m 0 c).arrAt 1 cfg0.N = overBatch (V m c main_v25) :=
  (dats m 0 c).arrAt_eq_of_cover 1 (overBatch (V m c main_v25)) (fun t _ => flushed_eq m c t) (cover c)

set_option maxHeartbeats 2000000 in
/-- The host operations before the region: `main_v25` is the gathered table `main_v23` with its pixel axes merged
    and the merged axis swapped with the feature axis. -/
theorem table_eq (c : Dev nD) :
    (V m c main_v25 : S512x4096.Idx → Elt F .f32)
      = transpose S512x4096 [1, 0] (shapeCast S4096x512 (V m c main_v23 : S64x64x512.Idx → Elt F .f32) shapeCasts_S64x64x512_S4096x512) transposes_S4096x512_S512x4096_1_0 := by
  show StableHlo.after hostOps0 (fun b => m (c, b)) (Proc.devRef .tc main_v25)
    = transpose S512x4096 [1, 0] (shapeCast S4096x512 (StableHlo.after hostOps0 (fun b => m (c, b)) (Proc.devRef .tc main_v23)) shapeCasts_S64x64x512_S4096x512) transposes_S4096x512_S512x4096_1_0
  after_results_simp <;> rfl

/-- The host operation after the region splits the result's lanes into pixels. -/
theorem tail_eq (c : Dev nD) :
    Pipeline.afterTail₀ cfgs (dats m) 0 (V0 m) [hostOps1] c main_v27
      = shapeCast S32x512x64x64 ((dats m 0 c).arrAt 1 cfg0.N) shapeCasts_S32x512x4096_S32x512x64x64 := by
  unfold Pipeline.afterTail₀
  show StableHlo.after hostOps1 _ (Proc.devRef .tc main_v27) = _
  after_results
  funext i
  exact congrFun (congrArg (fun z => shapeCast S32x512x64x64 z shapeCasts_S32x512x4096_S32x512x64x64)
    (Pipeline.withArrays_arr spec0 launch0.win.arr_inj c (V0 m c) (fun w => (dats m 0 c).arrAt w (cfgs 0).N) 1)) i

/-- The gathered table as the host operations before the region leave it in `main_v23`. -/
abbrev table (c : Dev nD) : (⟨3, ![64, 64, 512]⟩ : Shape).Idx → Elt F .f32 := V m c main_v23

/-- THE PROGRAM'S RESULT: entry (b, f, p, q) is entry (p, q, f) of the gathered table. -/
theorem result_eq (c : Dev nD) :
    Pipeline.afterTail₀ cfgs (dats m) 0 (V0 m) [hostOps1] c main_v27 = posOf (table m c) := by
  rw [tail_eq, final, table_eq]
  exact repeat_split_eq (table m c) shapeCasts_S64x64x512_S4096x512 transposes_S4096x512_S512x4096_1_0
    shapeCasts_S32x512x4096_S32x512x64x64

/-- The frame run re-posted: the result at `posOf` of the gathered table, the arguments unchanged. -/
theorem run : θ_run defs (onTc (τ := τ) (main (F := F))) ⟨m, fun _ => 0, ρ⟩ fun r => ∀ c : Dev nD,
      r.2.mem ((c.tc : Thread nD τ).loc main_v27) = posOf (table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v27 (Pipeline.mem_restRefs_of main_v27 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.PosValue

end
-- ==== Proof.RefValue.lean ====
/-
  The reference's result as the positional table re-indexed.

  After its gather the reference moves the feature axis to the front ([64, 64, 512] → [512, 64, 64]), adds a unit
  batch axis and repeats over the batch of 32: entry (b, f, p, q) of its result is entry (p, q, f) of the gathered
  table, for every b.
-/
import proofs.«413328_j13245679141210_3_alg».proof.Proof.Gen.ReferenceIdeal.Read
import proofs.«413328_j13245679141210_3_alg».proof.Proof.Layout

noncomputable section

namespace Cert.ReferenceIdeal.PosValue

open Cert.ReferenceIdeal Cert.ReferenceIdeal.Read Idealize.ShloMosaic Idealize.ShloMosaic.ValueIdx Cert.PosTable

variable {F : FTy → Type} [FloatOps F]

/-- The reference's result is `posOf` of its gathered table. -/
theorem result_eq (x1 : (⟨S64x512, .f32⟩ : BufTy).Contents (Elt F)) :
    val_main_v26 (F := F) x1 = posOf (val_main_v23 (F := F) x1) := by
  funext i
  rw [val_main_v26_apply, val_main_v25_apply, val_main_v24_apply]
  unfold posOf
  refine congrArg (val_main_v23 (F := F) x1) (funext fun a => ?_)
  match a with
  | ⟨0, _⟩ => rfl
  | ⟨1, _⟩ => rfl
  | ⟨2, _⟩ => rfl

end Cert.ReferenceIdeal.PosValue

end
-- ==== Proof.lean ====
/-
  Kernel and reference compute the same positional encoding.

  Both programs build, from integer iotas alone, the same [64, 64] map of embedding-row indices
  Z (p, q) = max (|32 − q| + |32 − p| − 1, 0) and gather the rows of the [64, 512] embedding table with it, by the
  same sequence of host operations: the gathered [64, 64, 512] table is one and the same term of the embedding
  argument in the two programs. No float arithmetic follows, only data movement:
    * the reference moves the feature axis to the front and repeats the table over the batch of 32;
    * the kernel merges the pixel axes, swaps the merged axis with the feature axis, copies 32 feature rows at a time
      into all 32 batch slots of its output block (a loop of 32 stores per grid point, 16 grid points), and a final
      host reshape splits the 4096 lanes back into 64 × 64 pixels.
  Entry (b, f, p, q) of either result is entry (p, q, f) of the gathered table, so the two results are equal as
  extended reals whatever the inputs hold; finiteness of the inputs is never used. The ideal pass rewrote nothing,
  so the idealized kernel is the kernel's own text read over the extended reals.
-/
import proofs.«413328_j13245679141210_3_alg».proof.Defs
import proofs.«413328_j13245679141210_3_alg».proof.Proof.Gen.Kernel
import proofs.«413328_j13245679141210_3_alg».proof.Proof.Gen.Kernel.Skeleton
import proofs.«413328_j13245679141210_3_alg».proof.Proof.Gen.Kernel.Loops
import proofs.«413328_j13245679141210_3_alg».proof.Proof.Gen.Kernel.Launch
import proofs.«413328_j13245679141210_3_alg».proof.Proof.Gen.Kernel.Points
import proofs.«413328_j13245679141210_3_alg».proof.Proof.Gen.Kernel.Frame
import proofs.«413328_j13245679141210_3_alg».proof.Proof.Gen.KernelIdeal
import proofs.«413328_j13245679141210_3_alg».proof.Proof.Gen.KernelIdeal.Skeleton
import proofs.«413328_j13245679141210_3_alg».proof.Proof.Gen.KernelIdeal.Loops
import proofs.«413328_j13245679141210_3_alg».proof.Proof.Gen.KernelIdeal.Launch
import proofs.«413328_j13245679141210_3_alg».proof.Proof.Gen.KernelIdeal.Points
import proofs.«413328_j13245679141210_3_alg».proof.Proof.Gen.KernelIdeal.Frame
import proofs.«413328_j13245679141210_3_alg».proof.Proof.Gen.ReferenceIdeal
import proofs.«413328_j13245679141210_3_alg».proof.Proof.Gen.Pre_finite_inputs
import proofs.«413328_j13245679141210_3_alg».proof.Proof.Gen.ReferenceIdeal.Run
import proofs.«413328_j13245679141210_3_alg».proof.Proof.Gen.ReferenceIdeal.Read
import proofs.«413328_j13245679141210_3_alg».proof.Proof.Layout
import proofs.«413328_j13245679141210_3_alg».proof.Proof.Body
import proofs.«413328_j13245679141210_3_alg».proof.Proof.KernelValue
import proofs.«413328_j13245679141210_3_alg».proof.Proof.RefValue
import Idealize.ShloMosaic.Adequacy
import Idealize.ShloMosaic.Init

noncomputable section

namespace Cert.Proof

open Idealize.ShloMosaic Idealize.ShloMosaic.TcCoe Idealize.SL.Sem Cert.PosTable

set_option maxHeartbeats 2000000 in
/-- The gathered table the kernel's host operations leave in its `main_v23` is the reference's gather stage of the same
    embedding argument: the two programs print the same operations up to the gather. -/
theorem tables_agree (m : (ℓ : Loc Cert.KernelIdeal.nD Cert.KernelIdeal.τ Cert.KernelIdeal.sig) → Buf (Elt Ideal) ℓ) (c : Dev Cert.KernelIdeal.nD) :
    Cert.KernelIdeal.PosValue.table (F := Ideal) m c
      = Cert.ReferenceIdeal.Read.val_main_v23 (F := Ideal) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v23) = _
  after_results_simp <;> rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `posOf` of the gathered table, and the tables agree. -/
theorem algebraic : Cert.algebraic_KernelIdeal_ReferenceIdeal := by
  intro m ρ m' ρ' _ hagree
  refine ⟨fun c => posOf (Cert.KernelIdeal.PosValue.table (F := Ideal) m c), Cert.KernelIdeal.PosValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.PosValue.result_eq, (hagree c).2]
  exact congrArg posOf (tables_agree m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
